-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1]⟩ ⟨2, ![1024, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S512x1 : Shape := ⟨2, ![512, 1]⟩
abbrev S1x512 : Shape := ⟨2, ![1, 512]⟩
abbrev S_ : Shape := ⟨0, ![]⟩
abbrev S1x256 : Shape := ⟨2, ![1, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x1, .f32⟩
  | .local _ .vmem, ⟨0, _⟩ => ⟨S512x256, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v19 : BitVec 32 := Scalar.muli v2 c2_i32_11
  let v20 : BitVec 32 := Scalar.addi c0_i32_12 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v21 : BitVec 32 := Scalar.muli v6 c1_i32_13
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1x512_p1_0_S512x1 : S1x512.Transposes [1, 0] S512x1
  inb_S512x1_S512x1_0_0 : ∀ a, (![0, 0] : Fin 2 → Nat) a + S512x1.size a ≤ S512x1.size a
  h_S512x1 : 0 < S512x1.numel
  dot_S1x256_S512x256_S1x512_1_1_0_0_n_n_wf : DotDims.WF S1x256 S512x256 S1x512 [1] [1] [0] [0] [] []
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3
def dot_S1x256_S512x256_S1x512_1_1_0_0_n_n : DotDims S1x256 S512x256 S1x512 where
  lhsContracting := [1]
  rhsContracting := [1]
  lhsNonContracting := [0]
  rhsNonContracting := [0]
  lhsBatch := []
  rhsBatch := []
  wf := dot_S1x256_S512x256_S1x512_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S1024 : Shape := ⟨1, ![1024]⟩
abbrev S1024x1 : Shape := ⟨2, ![1024, 1]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S1024, .f32⟩
  | .hbm, ⟨3, _⟩ => ⟨S1024x1, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)

variable [Facts₀]

class Facts : Prop extends Facts₀ where

variable [Facts]
-- ==== Proof.KernelExchange.lean ====
/-
  The exchange between the two devices of a mesh row, device `c` at mesh coordinates (c / 2, c % 2) and its
  partner `peer c` at (c / 2, 1 - c % 2), as a schedule of one round per semaphore.

  Each device signals its partner's entry semaphore one unit and waits for one unit on its own: the partner's unit
  says the partner is inside the kernel, and brings the partner's receive row with it. The device then writes the
  row sums of its 512 x 256 block into its send row, sends that row into the partner's receive row (crediting its own
  send semaphore and the partner's receive semaphore), waits for both, and adds the row it received to the row it sent.

  Cells: the entry cell of `c` has one duty (paid by `peer c`'s signal: `peer c`'s receive row, at any contents);
  the send cell of `c` one duty (the send row back, still holding the row sums of `c`'s block);
  the receive cell of `c` one duty (the receive row holding the row sums of `peer c`'s block).
-/
import proofs.«901101_g7700000000001102_dist_sum_ax1_xy_m512_n256_v7x_xy2x2_f32_1_alg».proof.Proof.Gen.Kernel
import proofs.«901101_g7700000000001102_dist_sum_ax1_xy_m512_n256_v7x_xy2x2_f32_1_alg».proof.Proof.Gen.Kernel.Skeleton
import proofs.«901101_g7700000000001102_dist_sum_ax1_xy_m512_n256_v7x_xy2x2_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty per round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner: the other device of the same mesh row -/

def peer (c : Dev nD) : Dev nD :=
  ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- Both device chains of the body — the signal's and the transfer's — name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pair : Dev nD ≃ Dev nD := ⟨peer, peer, peer_peer, peer_peer⟩

/-! ## The memrefs and cells -/

abbrev xM : Memref sig .tc .vmem S512x256 .f32 := Memref.whole cc0_stg0_0
abbrev oM : Memref sig .tc .vmem S512x1 .f32 := Memref.whole cc0_stg1_0
/-- the send row and the receive row -/
abbrev sM : Memref sig .tc .vmem S1x512 .f32 := Memref.whole cc0_scratch0
abbrev rM : Memref sig .tc .vmem S1x512 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange: entry, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S1x512 .f32).view.dmaCredit
theorem N_pos : 0 < N := View.dmaCredit_pos _ (by decide)

/-! ## Contents -/

/-- Device `c`'s block of the argument, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The row device `c` sends: the product of the all-ones row with its block, contracted over the block's columns. -/
def sent (c : Dev nD) : (cc0_scratch0 : Ref sig .tc).ty.Contents (Elt F) := k0_pay2 (xstg m ρ c)

/-- The row device `c` receives: its partner's. -/
def landed (c : Dev nD) : Buf (Elt F) ((rM : Memref sig .tc .vmem S1x512 .f32).view.loc (c : Thread nD τ)) := sent m ρ (peer c)

/-- The kernel's result on device `c`: its own row plus its partner's, transposed to a column. -/
def outAt (c : Dev nD) : (cc0_stg1_0 : Ref sig .tc).ty.Contents (Elt F) := k0_pay1 (sent m ρ c) (sent m ρ (peer c))

omit [FloatOps F] in
/-- A whole row written over a whole row is the row written. -/
theorem landed_eq (c : Dev nD) (fd : Buf (Elt F) ((rM : Memref sig .tc .vmem S1x512 .f32).view.loc (c : Thread nD τ))) (fs : (cc0_scratch0 : Ref sig .tc).ty.Contents (Elt F)) :
    (rM : Memref sig .tc .vmem S1x512 .f32).view.write (Elt F) fd ((sM : Memref sig .tc .vmem S1x512 .f32).view.read (Elt F) fs) Finset.univ = fs := by
  show (View.whole cc0_scratch1).write (Elt F) fd ((View.whole cc0_scratch0).read (Elt F) fs) Finset.univ = fs
  rw [View.read_whole]
  exact View.write_whole_univ _ _ _

def rcvPts (c : Dev nD) (f : Buf (Elt F) ((rM : Memref sig .tc .vmem S1x512 .f32).view.loc (c : Thread nD τ))) : sProp 𝕄 :=
  (rM : Memref sig .tc .vmem S1x512 .f32).view.loc (c : Thread nD τ) ↦[(rM : Memref sig .tc .vmem S1x512 .f32).view.set]{fullShare} f
def sndPts (c : Dev nD) (f : Buf (Elt F) ((sM : Memref sig .tc .vmem S1x512 .f32).view.loc (c : Thread nD τ))) : sProp 𝕄 :=
  (sM : Memref sig .tc .vmem S1x512 .f32).view.loc (c : Thread nD τ) ↦[(sM : Memref sig .tc .vmem S1x512 .f32).view.set]{fullShare} f

omit [FloatOps F] in
instance rcvPts_storable (c : Dev nD) (f) : BI.Storable (upEmb : UEmb _ 𝕄) (rcvPts (F := F) c f) := by unfold rcvPts; infer_instance
omit [FloatOps F] in
instance sndPts_storable (c : Dev nD) (f) : BI.Storable (upEmb : UEmb _ 𝕄) (sndPts (F := F) c f) := by unfold sndPts; infer_instance

omit [FloatOps F] in
theorem rcv_set : (rM : Memref sig .tc .vmem S1x512 .f32).view.set = Finset.univ := View.set_whole _
omit [FloatOps F] in
theorem snd_set : (sM : Memref sig .tc .vmem S1x512 .f32).view.set = Finset.univ := View.set_whole _
omit [FloatOps F] in
theorem rcvPts_eq (c : Dev nD) (f : Buf (Elt F) ((c : Thread nD τ).loc cc0_scratch1)) :
    rcvPts c f = (((c : Thread nD τ).loc cc0_scratch1) ↦{fullShare} f : sProp 𝕄) := by unfold rcvPts; rw [rcv_set]
omit [FloatOps F] in
theorem sndPts_eq (c : Dev nD) (f : Buf (Elt F) ((c : Thread nD τ).loc cc0_scratch0)) :
    sndPts c f = (((c : Thread nD τ).loc cc0_scratch0) ↦{fullShare} f : sProp 𝕄) := by unfold sndPts; rw [snd_set]

/-! ## The schedule -/

/-- What the partner's signal hands `c`: the partner's receive row (at any contents) and that the partner has reached
    round 0 of its receive cell — what the transfer into that row needs. -/
def barPay (c : Dev nD) : sProp 𝕄 := iprop((∃ f, rcvPts (peer c) f) ∗ reached ER (recvCell (peer c)) 0)
def recvPay (c : Dev nD) : sProp 𝕄 := rcvPts c (landed m ρ c)
def sendPay (c : Dev nD) : sProp 𝕄 := sndPts c (sent m ρ c)

abbrev IsCell (g : GSem nD τ sig) : Prop := g.1.2 = .tc ∧ (g.2 = .reg barS ∨ g.2 = .dma sendS.sem ∨ g.2 = .dma recvS.sem)

/-- One round, round 0, one duty per cell: an entry cell's of one unit, a send or receive cell's of the row's credit. -/
def xRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xRd (F := F) m ρ).duties (barCell c) 0 = {()} := by dsimp only [xRd]; exact if_pos ⟨rfl, rfl, .inl rfl⟩
theorem duties_send : (xRd (F := F) m ρ).duties (sendCell c) 0 = {()} := by dsimp only [xRd]; exact if_pos ⟨rfl, rfl, .inr (.inl rfl)⟩
theorem duties_recv : (xRd (F := F) m ρ).duties (recvCell c) 0 = {()} := by dsimp only [xRd]; exact if_pos ⟨rfl, rfl, .inr (.inr rfl)⟩
theorem duties_later (g : GSem nD τ sig) : ∀ r, 1 ≤ r → (xRd (F := F) m ρ).duties g r = ∅ :=
  fun r hr => by dsimp only [xRd]; rw [if_neg fun h => by omega]

theorem amount_bar (d : Unit) : (xRd (F := F) m ρ).amount (barCell c) 0 d = 1 := by dsimp only [xRd]; exact if_pos rfl
theorem amount_send (d : Unit) : (xRd (F := F) m ρ).amount (sendCell c) 0 d = N := by dsimp only [xRd]; exact if_neg send_ne_bar
theorem amount_recv (d : Unit) : (xRd (F := F) m ρ).amount (recvCell c) 0 d = N := by dsimp only [xRd]; exact if_neg recv_ne_bar

theorem expect_bar : (xRd (F := F) m ρ).expect (barCell c) 0 = 1 := by
  unfold Schedule.expect Schedule.amountOf; rw [duties_bar, Finset.sum_singleton, amount_bar]
theorem expect_send : (xRd (F := F) m ρ).expect (sendCell c) 0 = N := by
  unfold Schedule.expect Schedule.amountOf; rw [duties_send, Finset.sum_singleton, amount_send]
theorem expect_recv : (xRd (F := F) m ρ).expect (recvCell c) 0 = N := by
  unfold Schedule.expect Schedule.amountOf; rw [duties_recv, Finset.sum_singleton, amount_recv]

theorem payload_bar (d : Unit) : (xRd (F := F) m ρ).payload (barCell c) 0 d = barPay c := by dsimp only [xRd]; rw [if_pos rfl]
theorem payload_send (d : Unit) : (xRd (F := F) m ρ).payload (sendCell c) 0 d = sendPay m ρ c := by
  dsimp only [xRd]; rw [if_neg send_ne_bar, if_neg send_ne_recv, if_pos rfl]
theorem payload_recv (d : Unit) : (xRd (F := F) m ρ).payload (recvCell c) 0 d = recvPay m ρ c := by
  dsimp only [xRd]; rw [if_neg recv_ne_bar, if_pos rfl]

theorem rest_bar : bigSep ((xRd (F := F) m ρ).duties (barCell c) 0 \ ∅) (fun d => (xRd (F := F) m ρ).payload (barCell c) 0 d) = barPay c := by
  rw [Finset.sdiff_empty, duties_bar, bigSep_singleton, payload_bar]
theorem rest_send : bigSep ((xRd (F := F) m ρ).duties (sendCell c) 0 \ ∅) (fun d => (xRd (F := F) m ρ).payload (sendCell c) 0 d) = sendPay m ρ c := by
  rw [Finset.sdiff_empty, duties_send, bigSep_singleton, payload_send]
theorem rest_recv : bigSep ((xRd (F := F) m ρ).duties (recvCell c) 0 \ ∅) (fun d => (xRd (F := F) m ρ).payload (recvCell c) 0 d) = recvPay m ρ c := by
  rw [Finset.sdiff_empty, duties_recv, bigSep_singleton, payload_recv]

end Sched

/-! ## What each device owes at launch; the levels -/

/-- Device `c` owes its partner's receive cell the row's credit and its partner's entry cell one unit (the signal comes
    first and peels the last summand). -/
def O₀ (c : Dev nD) : CellTallies nD τ sig Unit := tallyAt (recvCell (peer c)) () N + tallyAt (barCell (peer c)) () 1

def L (g : GSem nD τ sig) : Finset Unit := if g.1.2 = .tc then {()} else ∅
/-- entry cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell or the send cell (level 0) is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its entry wait a device owes its partner's receive credit only: a receive cell, above its entry cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its partner's entry cell (its signal) and its partner's receive cell (its transfer). -/
def invs (K : Dev nD × Fin 3 → ℕ) (c : Dev nD) : sProp 𝕄 :=
  iprop(cellInv ER (xRd m ρ) (K (c, 0)) (barCell c) ∗ cellInv ER (xRd m ρ) (K (c, 1)) (sendCell c) ∗ cellInv ER (xRd m ρ) (K (c, 2)) (recvCell c)
    ∗ cellInv ER (xRd m ρ) (K (peer c, 0)) (barCell (peer c)) ∗ cellInv ER (xRd m ρ) (K (peer c, 2)) (recvCell (peer c)))

instance invs_persistent (K : Dev nD × Fin 3 → ℕ) (c : Dev nD) : BI.Persistent (invs m ρ K c) := by unfold invs; infer_instance

/-- The tokens of the duties device `c` pays: its partner's entry duty, its partner's receive duty, its own send duty. -/
def payToks (c : Dev nD) : sProp 𝕄 :=
  iprop(dutyTok ER (barCell (peer c)) 0 () ∗ dutyTok ER (recvCell (peer c)) 0 () ∗ dutyTok ER (sendCell c) 0 ())

/-- The exchange's ghost state device `c` starts from: the invariants; its positions at round 0 of its three cells; round 0
    reached of the cells it pays and of its own send and receive cells; the three tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from: that at some names, its two credit tokens (its entry cell's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, sndPts c f) ∗ (∃ f, rcvPts c f))
/-- After the point: the send row holding `c`'s row sums, the receive row holding its partner's, the two own cells at zero. -/
def Φ₁ (c : Dev nD) : sProp 𝕄 :=
  iprop(sndPts c (sent m ρ c) ∗ rcvPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Exchange

end
-- ==== Proof.KernelBody.lean ====
/-
  One device's body, run from the exchange's starting resources to what it leaves: the send row holding the row sums of
  its block, the receive row holding its partner's, the result block holding their sum as a column.
-/
import proofs.«901101_g7700000000001102_dist_sum_ax1_xy_m512_n256_v7x_xy2x2_f32_1_alg».proof.Proof.KernelExchange

noncomputable section

namespace Cert.Kernel.Exchange

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ (∃ f, sndPts c f) ∗ (∃ f, rcvPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

omit [FloatOps F] in
/-- The staged argument block and the staged result block, held through their memrefs, are the whole buffers. -/
theorem xPts_eq (c : Dev nD) (f : Buf (Elt F) ((c : Thread nD τ).loc cc0_stg0_0)) :
    ((xM : Memref sig .tc .vmem S512x256 .f32).view.loc (c : Thread nD τ) ↦[(xM : Memref sig .tc .vmem S512x256 .f32).view.set]{fullShare} f : sProp 𝕄)
      = (((c : Thread nD τ).loc cc0_stg0_0) ↦{fullShare} f : sProp 𝕄) := by rw [View.set_whole]
omit [FloatOps F] in
theorem oPts_eq (c : Dev nD) (f : Buf (Elt F) ((c : Thread nD τ).loc cc0_stg1_0)) :
    ((oM : Memref sig .tc .vmem S512x1 .f32).view.loc (c : Thread nD τ) ↦[(oM : Memref sig .tc .vmem S512x1 .f32).view.set]{fullShare} f : sProp 𝕄)
      = (((c : Thread nD τ).loc cc0_stg1_0) ↦{fullShare} f : sProp 𝕄) := by rw [View.set_whole]

/-! The schedule's tables at the cells this body touches, the partner's with `peer (peer c)` resolved. -/

theorem payload_bar_peer (c : Dev nD) (d : Unit) :
    (xRd (F := F) m ρ).payload (barCell (peer c)) 0 d
      = iprop((∃ f, (rM : Memref sig .tc .vmem S1x512 .f32).view.loc (c : Thread nD τ) ↦[(rM : Memref sig .tc .vmem S1x512 .f32).view.set]{fullShare} f) ∗ reached ER (recvCell c) 0) := by
  rw [payload_bar]; unfold barPay rcvPts; rw [peer_peer]
theorem payload_bar_own (c : Dev nD) (d : Unit) :
    (xRd (F := F) m ρ).payload (barCell c) 0 d
      = iprop((∃ f, (rM : Memref sig .tc .vmem S1x512 .f32).view.loc (peer c : Thread nD τ) ↦[(rM : Memref sig .tc .vmem S1x512 .f32).view.set]{fullShare} f) ∗ reached ER (recvCell (peer c)) 0) := by
  rw [payload_bar]; unfold barPay rcvPts; rfl
theorem payload_recv_peer (c : Dev nD) (d : Unit) :
    (xRd (F := F) m ρ).payload (recvCell (peer c)) 0 d
      = ((rM : Memref sig .tc .vmem S1x512 .f32).view.loc (peer c : Thread nD τ) ↦[(rM : Memref sig .tc .vmem S1x512 .f32).view.set]{fullShare} sent m ρ c : sProp 𝕄) := by
  rw [payload_recv]; unfold recvPay rcvPts landed; rw [peer_peer]
theorem payload_recv_own (c : Dev nD) (d : Unit) :
    (xRd (F := F) m ρ).payload (recvCell c) 0 d
      = ((rM : Memref sig .tc .vmem S1x512 .f32).view.loc (c : Thread nD τ) ↦[(rM : Memref sig .tc .vmem S1x512 .f32).view.set]{fullShare} sent m ρ (peer c) : sProp 𝕄) := by
  rw [payload_recv]; unfold recvPay rcvPts landed; rfl
theorem payload_send_own (c : Dev nD) (d : Unit) :
    (xRd (F := F) m ρ).payload (sendCell c) 0 d
      = ((sM : Memref sig .tc .vmem S1x512 .f32).view.loc (c : Thread nD τ) ↦[(sM : Memref sig .tc .vmem S1x512 .f32).view.set]{fullShare} sent m ρ c : sProp 𝕄) := by
  rw [payload_send]; unfold sendPay sndPts; rfl

omit [FloatOps F] in
theorem hz : (![0, 0] : Fin 2 → Nat) = fun _ => 0 := funext fun a => by fin_cases a <;> rfl

abbrev rX : Rect S512x256 := Rect.unit (s := S512x256) ![0, 0] S512x256.size inb_S512x256_S512x256_0_0
abbrev rRow : Rect S1x512 := Rect.unit (s := S1x512) ![0, 0] S1x512.size inb_S1x512_S1x512_0_0
abbrev rCol : Rect S512x1 := Rect.unit (s := S512x1) ![0, 0] S512x1.size inb_S512x1_S512x1_0_0

omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz _ f
omit [FloatOps F] in
theorem read_snd (f : (cc0_scratch0 : Ref sig .tc).ty.Contents (Elt F)) : (sM : Memref sig .tc .vmem S1x512 .f32).view.readAt (Elt F) rRow.toLoadRect f = f :=
  Memref.readAt_unit_zero (Elt F) cc0_scratch0 hz _ f
omit [FloatOps F] in
theorem read_rcv (f : (cc0_scratch1 : Ref sig .tc).ty.Contents (Elt F)) : (rM : Memref sig .tc .vmem S1x512 .f32).view.readAt (Elt F) rRow.toLoadRect f = f :=
  Memref.readAt_unit_zero (Elt F) cc0_scratch1 hz _ f

/-- What the body's first store leaves in the send row, over whatever the row held: the row device `c` sends. -/
theorem sent_restate (c : Dev nD) (fs0 : Buf (Elt F) ((sM : Memref sig .tc .vmem S1x512 .f32).view.loc (c : Thread nD τ))) :
    (sM : Memref sig .tc .vmem S1x512 .f32).view.writes (Elt F) fs0 [⟨Rect.unit (s := S1x512) ![0, 0] S1x512.size inb_S1x512_S1x512_0_0,
        k0_pay2 (View.readAt (Elt F) (xM : Memref sig .tc .vmem S512x256 .f32).view (Rect.unit (s := S512x256) ![0, 0] S512x256.size inb_S512x256_S512x256_0_0).toLoadRect (xstg m ρ c))⟩]
      = sent m ρ c := by
  rw [View.writes_singleton, read_x]
  exact Memref.write_access_unit_zero_univ (Elt F) cc0_scratch0 hz _ fs0 _

/-- What the body's last store leaves in the result block, over whatever it held: the sum of the two rows as a column. -/
theorem out_restate (c : Dev nD) (g1 : Buf (Elt F) ((oM : Memref sig .tc .vmem S512x1 .f32).view.loc (c : Thread nD τ))) :
    (oM : Memref sig .tc .vmem S512x1 .f32).view.writes (Elt F) g1 [⟨Rect.unit (s := S512x1) ![0, 0] S512x1.size inb_S512x1_S512x1_0_0,
        k0_pay1 (View.readAt (Elt F) (sM : Memref sig .tc .vmem S1x512 .f32).view (Rect.unit (s := S1x512) ![0, 0] S1x512.size inb_S1x512_S1x512_0_0).toLoadRect (sent m ρ c))
          (View.readAt (Elt F) (rM : Memref sig .tc .vmem S1x512 .f32).view (Rect.unit (s := S1x512) ![0, 0] S1x512.size inb_S1x512_S1x512_0_0).toLoadRect (sent m ρ (peer c)))⟩]
      = outAt m ρ c := by
  rw [View.writes_singleton, read_snd, read_rcv]
  exact Memref.write_access_unit_zero_univ (Elt F) cc0_stg1_0 hz _ g1 _

theorem unit_mem_single : () ∈ ({()} : Finset Unit) := Finset.mem_singleton_self _

attribute [local sl_rounds] duties_bar duties_send duties_recv amount_bar amount_send amount_recv expect_bar expect_send expect_recv
  payload_bar_own payload_recv_own payload_send_own unit_mem_single
attribute [local sl_rounds high] payload_bar_peer payload_recv_peer
attribute [local sl_canon] dev1_eq dev2_eq

set_option maxHeartbeats 1600000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs payToks sndPts rcvPts
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hsnd⟩, ⟨%fr0, Hrcv⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  have hmw := mayWait_bar (F := F) c
  ihave Hx' := (Entails.of_eq (xPts_eq (F := F) c (xstg m ρ c)).symm) $$ Hx
  ihave Hout' := (Entails.of_eq (oPts_eq (F := F) c g1).symm) $$ Hout
  set_option sl_exec.maxSteps 13 in sl_exec (disch := simp only [dev1_eq, dev2_eq])
  rw [sent_restate m ρ c fs0]
  sl_exec (disch := simp only [dev1_eq, dev2_eq])
  -- the two own cells close: their counters at zero are the device's again
  imod (Rounds.cell_close ER (xRd m ρ) (Set.mem_univ (K (c, 1))) (fun h => h) (R := 1) (duties_later m ρ (sendCell c))) $$ [HatS] with HzS
  · isplitr; · iexact HIsnd
    iexact HatS
  imod (Rounds.cell_close ER (xRd m ρ) (Set.mem_univ (K (c, 2))) (fun h => h) (R := 1) (duties_later m ρ (recvCell c))) $$ [HatV] with HzV
  · isplitr; · iexact HIrcv
    iexact HatV
  rw [out_restate m ρ c g1, wp_ret]; imodintro
  ihave Hx := (Entails.of_eq (xPts_eq (F := F) c (xstg m ρ c))) $$ Hx'
  ihave Hout := (Entails.of_eq (oPts_eq (F := F) c (outAt m ρ c))) $$ Hout'
  iapply Hk
  unfold bodyPost Φ₁ Dat.owesAt Pipeline.owesWithin sndPts rcvPts landed
  rw [show (dats m ρ 0 c).owed t₀.succ = 0 from rfl]
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hsnd, Hrcv⟩, Ho, Hx, Hout⟩
  iapply (sound_body m ρ K c fun _ => bodyPost m ρ c)
  unfold bodyPre
  isplitr []
  · isplitl [Hg Hrest Hsnd Hrcv]
    · isplitl [Hg]; · iexact Hg
      icases Hrest with ⟨H1, H2, H3⟩
      isplitl [H1]; · iexact H1
      isplitl [H2]; · iexact H2
      isplitl [H3]; · iexact H3
      isplitl [Hsnd]; · iexact Hsnd
      iexact Hrcv
    isplitl [Ho]; · iexact Ho
    isplitl [Hx] <;> iassumption
  · iintro H; iexact H

end Body

end Cert.Kernel.Exchange

end
-- ==== Proof.KernelLaunch.lean ====
/-
  The launch: every device's body proved, the exchange's cells allocated for all four devices under one update, each
  device dealt the tokens of the duties it pays, and the program run to its end with every window's array at its final
  contents.
-/
import proofs.«901101_g7700000000001102_dist_sum_ax1_xy_m512_n256_v7x_xy2x2_f32_1_alg».proof.Proof.KernelBody

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Every cell's one duty token, as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (xRd m ρ) (K ck) (kcell ck) : sProp 𝕄)) ⊢ cellInv ER (xRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear G' ghost invs
  iintro ⟨⟨#HI, #HR⟩, ⟨HaB, HaS, HaV⟩, Htk⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  iexact Htk

omit [FloatOps F] in
/-- The tokens dealt across each pair: a device's entry token and receive token go to its partner, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (xRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s entry cell: a unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%g, Hs1⟩⟩
  isplitl [Hs]; · iexact Hs
  isplitl [Hs0]
  · iexists f; rw [sndPts_eq]; iexact Hs0
  · iexists g; rw [rcvPts_eq]; iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hs0, Hs1, HzS, HzV⟩
  isplitr; · iempintro
  isplitl [HzS HzV]
  · isplitl [HzS] <;> iassumption
  isplitl [Hs0]
  · iexists (sent m ρ c); rw [← sndPts_eq]; iexact Hs0
  · iexists (landed m ρ c); rw [← rcvPts_eq]; iexact Hs1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of the program — the devices of each mesh row meeting on their entry semaphores, then exchanging their rows —
    terminates, and every final state has each window's array on each device at its final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Exchange.run_main' depends on axioms: [propext, Classical.choice, Quot.sound] -/
#guard_msgs in #print axioms run_main

end Cert.Kernel.Exchange

end
-- ==== Proof.KernelResult.lean ====
/-
  What the run leaves in the two arrays of each device: the argument block as it was, and the result block holding,
  as a column, the row sums of the device's own block plus the row sums of its partner's.
-/
import proofs.«901101_g7700000000001102_dist_sum_ax1_xy_m512_n256_v7x_xy2x2_f32_1_alg».proof.Proof.KernelLaunch

noncomputable section

namespace Cert.Kernel.Exchange

open Cert.Kernel Cert.Kernel.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The argument array is never written back: after the run it holds what it held. -/
theorem finalA_x (c : Dev nD) : finalA m ρ c (0 : Fin 2) = m ((c : Thread nD τ).loc main_arg0) :=
  (dats (F := F) m ρ 0 c).arrAt_in (0 : Fin 2) rfl _

/-- The staged argument block is the whole argument array. -/
theorem xstg_eq (c : Dev nD) : xstg m ρ c = m ((c : Thread nD τ).loc main_arg0) :=
  Memref.read_access_unit_zero (Elt F) main_arg0 (funext fun a => Nat.zero_mul _) _ _

/-- The result array after the one write-back is the block the body left: the window's block is the whole array. -/
theorem finalA_out (c : Dev nD) : finalA m ρ c (1 : Fin 2) = outAt m ρ c := by
  have hw : ∀ f : Buf (Elt F) ((cfg0.win (1 : Fin 2)).arr.view.loc (c : Thread nD τ)),
      ((cfg0.win (1 : Fin 2)).blk t₀).view.read (Elt F) f = f := fun f =>
    Memref.read_access_unit_zero (Elt F) main_v1 (funext fun a => Nat.zero_mul _) _ f
  unfold finalA
  rw [← hw ((dats m ρ 0 c).arrAt (1 : Fin 2) cfg0.N)]
  rw [show cfg0.N = (t₀ : Fin cfg0.N).val + 1 from rfl, Dat.arrAt_succ, if_pos (show (cfg0.win (1 : Fin 2)).flush t₀ = true from rfl), View.read_write_univ]
  rfl

/-- Every weakly fair execution of the program ends, on every device, with the result array at the sum of the two
    rows and the argument array unchanged. -/
theorem run : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_main m ρ)

/-- info: 'Cert.Kernel.Exchange.run' depends on axioms: [propext, Classical.choice, Quot.sound] -/
#guard_msgs in #print axioms run

end Cert.Kernel.Exchange

end
-- ==== Proof.KernelIdealExchange.lean ====
/-
  The exchange between the two devices of a mesh row, device `c` at mesh coordinates (c / 2, c % 2) and its
  partner `peer c` at (c / 2, 1 - c % 2), as a schedule of one round per semaphore.

  Each device signals its partner's entry semaphore one unit and waits for one unit on its own: the partner's unit
  says the partner is inside the kernel, and brings the partner's receive row with it. The device then writes the
  row sums of its 512 x 256 block into its send row, sends that row into the partner's receive row (crediting its own
  send semaphore and the partner's receive semaphore), waits for both, and adds the row it received to the row it sent.

  Cells: the entry cell of `c` has one duty (paid by `peer c`'s signal: `peer c`'s receive row, at any contents);
  the send cell of `c` one duty (the send row back, still holding the row sums of `c`'s block);
  the receive cell of `c` one duty (the receive row holding the row sums of `peer c`'s block).
-/
import proofs.«901101_g7700000000001102_dist_sum_ax1_xy_m512_n256_v7x_xy2x2_f32_1_alg».proof.Proof.Gen.KernelIdeal
import proofs.«901101_g7700000000001102_dist_sum_ax1_xy_m512_n256_v7x_xy2x2_f32_1_alg».proof.Proof.Gen.KernelIdeal.Skeleton
import proofs.«901101_g7700000000001102_dist_sum_ax1_xy_m512_n256_v7x_xy2x2_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty per round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner: the other device of the same mesh row -/

def peer (c : Dev nD) : Dev nD :=
  ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- Both device chains of the body — the signal's and the transfer's — name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pair : Dev nD ≃ Dev nD := ⟨peer, peer, peer_peer, peer_peer⟩

/-! ## The memrefs and cells -/

abbrev xM : Memref sig .tc .vmem S512x256 .f32 := Memref.whole cc0_stg0_0
abbrev oM : Memref sig .tc .vmem S512x1 .f32 := Memref.whole cc0_stg1_0
/-- the send row and the receive row -/
abbrev sM : Memref sig .tc .vmem S1x512 .f32 := Memref.whole cc0_scratch0
abbrev rM : Memref sig .tc .vmem S1x512 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange: entry, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S1x512 .f32).view.dmaCredit
theorem N_pos : 0 < N := View.dmaCredit_pos _ (by decide)

/-! ## Contents -/

/-- Device `c`'s block of the argument, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The row device `c` sends: the product of the all-ones row with its block, contracted over the block's columns. -/
def sent (c : Dev nD) : (cc0_scratch0 : Ref sig .tc).ty.Contents (Elt F) := k0_pay2 (xstg m ρ c)

/-- The row device `c` receives: its partner's. -/
def landed (c : Dev nD) : Buf (Elt F) ((rM : Memref sig .tc .vmem S1x512 .f32).view.loc (c : Thread nD τ)) := sent m ρ (peer c)

/-- The kernel's result on device `c`: its own row plus its partner's, transposed to a column. -/
def outAt (c : Dev nD) : (cc0_stg1_0 : Ref sig .tc).ty.Contents (Elt F) := k0_pay1 (sent m ρ c) (sent m ρ (peer c))

omit [FloatOps F] in
/-- A whole row written over a whole row is the row written. -/
theorem landed_eq (c : Dev nD) (fd : Buf (Elt F) ((rM : Memref sig .tc .vmem S1x512 .f32).view.loc (c : Thread nD τ))) (fs : (cc0_scratch0 : Ref sig .tc).ty.Contents (Elt F)) :
    (rM : Memref sig .tc .vmem S1x512 .f32).view.write (Elt F) fd ((sM : Memref sig .tc .vmem S1x512 .f32).view.read (Elt F) fs) Finset.univ = fs := by
  show (View.whole cc0_scratch1).write (Elt F) fd ((View.whole cc0_scratch0).read (Elt F) fs) Finset.univ = fs
  rw [View.read_whole]
  exact View.write_whole_univ _ _ _

def rcvPts (c : Dev nD) (f : Buf (Elt F) ((rM : Memref sig .tc .vmem S1x512 .f32).view.loc (c : Thread nD τ))) : sProp 𝕄 :=
  (rM : Memref sig .tc .vmem S1x512 .f32).view.loc (c : Thread nD τ) ↦[(rM : Memref sig .tc .vmem S1x512 .f32).view.set]{fullShare} f
def sndPts (c : Dev nD) (f : Buf (Elt F) ((sM : Memref sig .tc .vmem S1x512 .f32).view.loc (c : Thread nD τ))) : sProp 𝕄 :=
  (sM : Memref sig .tc .vmem S1x512 .f32).view.loc (c : Thread nD τ) ↦[(sM : Memref sig .tc .vmem S1x512 .f32).view.set]{fullShare} f

omit [FloatOps F] in
instance rcvPts_storable (c : Dev nD) (f) : BI.Storable (upEmb : UEmb _ 𝕄) (rcvPts (F := F) c f) := by unfold rcvPts; infer_instance
omit [FloatOps F] in
instance sndPts_storable (c : Dev nD) (f) : BI.Storable (upEmb : UEmb _ 𝕄) (sndPts (F := F) c f) := by unfold sndPts; infer_instance

omit [FloatOps F] in
theorem rcv_set : (rM : Memref sig .tc .vmem S1x512 .f32).view.set = Finset.univ := View.set_whole _
omit [FloatOps F] in
theorem snd_set : (sM : Memref sig .tc .vmem S1x512 .f32).view.set = Finset.univ := View.set_whole _
omit [FloatOps F] in
theorem rcvPts_eq (c : Dev nD) (f : Buf (Elt F) ((c : Thread nD τ).loc cc0_scratch1)) :
    rcvPts c f = (((c : Thread nD τ).loc cc0_scratch1) ↦{fullShare} f : sProp 𝕄) := by unfold rcvPts; rw [rcv_set]
omit [FloatOps F] in
theorem sndPts_eq (c : Dev nD) (f : Buf (Elt F) ((c : Thread nD τ).loc cc0_scratch0)) :
    sndPts c f = (((c : Thread nD τ).loc cc0_scratch0) ↦{fullShare} f : sProp 𝕄) := by unfold sndPts; rw [snd_set]

/-! ## The schedule -/

/-- What the partner's signal hands `c`: the partner's receive row (at any contents) and that the partner has reached
    round 0 of its receive cell — what the transfer into that row needs. -/
def barPay (c : Dev nD) : sProp 𝕄 := iprop((∃ f, rcvPts (peer c) f) ∗ reached ER (recvCell (peer c)) 0)
def recvPay (c : Dev nD) : sProp 𝕄 := rcvPts c (landed m ρ c)
def sendPay (c : Dev nD) : sProp 𝕄 := sndPts c (sent m ρ c)

abbrev IsCell (g : GSem nD τ sig) : Prop := g.1.2 = .tc ∧ (g.2 = .reg barS ∨ g.2 = .dma sendS.sem ∨ g.2 = .dma recvS.sem)

/-- One round, round 0, one duty per cell: an entry cell's of one unit, a send or receive cell's of the row's credit. -/
def xRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xRd (F := F) m ρ).duties (barCell c) 0 = {()} := by dsimp only [xRd]; exact if_pos ⟨rfl, rfl, .inl rfl⟩
theorem duties_send : (xRd (F := F) m ρ).duties (sendCell c) 0 = {()} := by dsimp only [xRd]; exact if_pos ⟨rfl, rfl, .inr (.inl rfl)⟩
theorem duties_recv : (xRd (F := F) m ρ).duties (recvCell c) 0 = {()} := by dsimp only [xRd]; exact if_pos ⟨rfl, rfl, .inr (.inr rfl)⟩
theorem duties_later (g : GSem nD τ sig) : ∀ r, 1 ≤ r → (xRd (F := F) m ρ).duties g r = ∅ :=
  fun r hr => by dsimp only [xRd]; rw [if_neg fun h => by omega]

theorem amount_bar (d : Unit) : (xRd (F := F) m ρ).amount (barCell c) 0 d = 1 := by dsimp only [xRd]; exact if_pos rfl
theorem amount_send (d : Unit) : (xRd (F := F) m ρ).amount (sendCell c) 0 d = N := by dsimp only [xRd]; exact if_neg send_ne_bar
theorem amount_recv (d : Unit) : (xRd (F := F) m ρ).amount (recvCell c) 0 d = N := by dsimp only [xRd]; exact if_neg recv_ne_bar

theorem expect_bar : (xRd (F := F) m ρ).expect (barCell c) 0 = 1 := by
  unfold Schedule.expect Schedule.amountOf; rw [duties_bar, Finset.sum_singleton, amount_bar]
theorem expect_send : (xRd (F := F) m ρ).expect (sendCell c) 0 = N := by
  unfold Schedule.expect Schedule.amountOf; rw [duties_send, Finset.sum_singleton, amount_send]
theorem expect_recv : (xRd (F := F) m ρ).expect (recvCell c) 0 = N := by
  unfold Schedule.expect Schedule.amountOf; rw [duties_recv, Finset.sum_singleton, amount_recv]

theorem payload_bar (d : Unit) : (xRd (F := F) m ρ).payload (barCell c) 0 d = barPay c := by dsimp only [xRd]; rw [if_pos rfl]
theorem payload_send (d : Unit) : (xRd (F := F) m ρ).payload (sendCell c) 0 d = sendPay m ρ c := by
  dsimp only [xRd]; rw [if_neg send_ne_bar, if_neg send_ne_recv, if_pos rfl]
theorem payload_recv (d : Unit) : (xRd (F := F) m ρ).payload (recvCell c) 0 d = recvPay m ρ c := by
  dsimp only [xRd]; rw [if_neg recv_ne_bar, if_pos rfl]

theorem rest_bar : bigSep ((xRd (F := F) m ρ).duties (barCell c) 0 \ ∅) (fun d => (xRd (F := F) m ρ).payload (barCell c) 0 d) = barPay c := by
  rw [Finset.sdiff_empty, duties_bar, bigSep_singleton, payload_bar]
theorem rest_send : bigSep ((xRd (F := F) m ρ).duties (sendCell c) 0 \ ∅) (fun d => (xRd (F := F) m ρ).payload (sendCell c) 0 d) = sendPay m ρ c := by
  rw [Finset.sdiff_empty, duties_send, bigSep_singleton, payload_send]
theorem rest_recv : bigSep ((xRd (F := F) m ρ).duties (recvCell c) 0 \ ∅) (fun d => (xRd (F := F) m ρ).payload (recvCell c) 0 d) = recvPay m ρ c := by
  rw [Finset.sdiff_empty, duties_recv, bigSep_singleton, payload_recv]

end Sched

/-! ## What each device owes at launch; the levels -/

/-- Device `c` owes its partner's receive cell the row's credit and its partner's entry cell one unit (the signal comes
    first and peels the last summand). -/
def O₀ (c : Dev nD) : CellTallies nD τ sig Unit := tallyAt (recvCell (peer c)) () N + tallyAt (barCell (peer c)) () 1

def L (g : GSem nD τ sig) : Finset Unit := if g.1.2 = .tc then {()} else ∅
/-- entry cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell or the send cell (level 0) is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its entry wait a device owes its partner's receive credit only: a receive cell, above its entry cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three,
    its partner's entry cell (its signal) and its partner's receive cell (its transfer). -/
def invs (K : Dev nD × Fin 3 → ℕ) (c : Dev nD) : sProp 𝕄 :=
  iprop(cellInv ER (xRd m ρ) (K (c, 0)) (barCell c) ∗ cellInv ER (xRd m ρ) (K (c, 1)) (sendCell c) ∗ cellInv ER (xRd m ρ) (K (c, 2)) (recvCell c)
    ∗ cellInv ER (xRd m ρ) (K (peer c, 0)) (barCell (peer c)) ∗ cellInv ER (xRd m ρ) (K (peer c, 2)) (recvCell (peer c)))

instance invs_persistent (K : Dev nD × Fin 3 → ℕ) (c : Dev nD) : BI.Persistent (invs m ρ K c) := by unfold invs; infer_instance

/-- The tokens of the duties device `c` pays: its partner's entry duty, its partner's receive duty, its own send duty. -/
def payToks (c : Dev nD) : sProp 𝕄 :=
  iprop(dutyTok ER (barCell (peer c)) 0 () ∗ dutyTok ER (recvCell (peer c)) 0 () ∗ dutyTok ER (sendCell c) 0 ())

/-- The exchange's ghost state device `c` starts from: the invariants; its positions at round 0 of its three cells; round 0
    reached of the cells it pays and of its own send and receive cells; the three tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from: that at some names, its two credit tokens (its entry cell's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, sndPts c f) ∗ (∃ f, rcvPts c f))
/-- After the point: the send row holding `c`'s row sums, the receive row holding its partner's, the two own cells at zero. -/
def Φ₁ (c : Dev nD) : sProp 𝕄 :=
  iprop(sndPts c (sent m ρ c) ∗ rcvPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Exchange

end
-- ==== Proof.KernelIdealBody.lean ====
/-
  One device's body, run from the exchange's starting resources to what it leaves: the send row holding the row sums of
  its block, the receive row holding its partner's, the result block holding their sum as a column.
-/
import proofs.«901101_g7700000000001102_dist_sum_ax1_xy_m512_n256_v7x_xy2x2_f32_1_alg».proof.Proof.KernelIdealExchange

noncomputable section

namespace Cert.KernelIdeal.Exchange

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ (∃ f, sndPts c f) ∗ (∃ f, rcvPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

omit [FloatOps F] in
/-- The staged argument block and the staged result block, held through their memrefs, are the whole buffers. -/
theorem xPts_eq (c : Dev nD) (f : Buf (Elt F) ((c : Thread nD τ).loc cc0_stg0_0)) :
    ((xM : Memref sig .tc .vmem S512x256 .f32).view.loc (c : Thread nD τ) ↦[(xM : Memref sig .tc .vmem S512x256 .f32).view.set]{fullShare} f : sProp 𝕄)
      = (((c : Thread nD τ).loc cc0_stg0_0) ↦{fullShare} f : sProp 𝕄) := by rw [View.set_whole]
omit [FloatOps F] in
theorem oPts_eq (c : Dev nD) (f : Buf (Elt F) ((c : Thread nD τ).loc cc0_stg1_0)) :
    ((oM : Memref sig .tc .vmem S512x1 .f32).view.loc (c : Thread nD τ) ↦[(oM : Memref sig .tc .vmem S512x1 .f32).view.set]{fullShare} f : sProp 𝕄)
      = (((c : Thread nD τ).loc cc0_stg1_0) ↦{fullShare} f : sProp 𝕄) := by rw [View.set_whole]

/-! The schedule's tables at the cells this body touches, the partner's with `peer (peer c)` resolved. -/

theorem payload_bar_peer (c : Dev nD) (d : Unit) :
    (xRd (F := F) m ρ).payload (barCell (peer c)) 0 d
      = iprop((∃ f, (rM : Memref sig .tc .vmem S1x512 .f32).view.loc (c : Thread nD τ) ↦[(rM : Memref sig .tc .vmem S1x512 .f32).view.set]{fullShare} f) ∗ reached ER (recvCell c) 0) := by
  rw [payload_bar]; unfold barPay rcvPts; rw [peer_peer]
theorem payload_bar_own (c : Dev nD) (d : Unit) :
    (xRd (F := F) m ρ).payload (barCell c) 0 d
      = iprop((∃ f, (rM : Memref sig .tc .vmem S1x512 .f32).view.loc (peer c : Thread nD τ) ↦[(rM : Memref sig .tc .vmem S1x512 .f32).view.set]{fullShare} f) ∗ reached ER (recvCell (peer c)) 0) := by
  rw [payload_bar]; unfold barPay rcvPts; rfl
theorem payload_recv_peer (c : Dev nD) (d : Unit) :
    (xRd (F := F) m ρ).payload (recvCell (peer c)) 0 d
      = ((rM : Memref sig .tc .vmem S1x512 .f32).view.loc (peer c : Thread nD τ) ↦[(rM : Memref sig .tc .vmem S1x512 .f32).view.set]{fullShare} sent m ρ c : sProp 𝕄) := by
  rw [payload_recv]; unfold recvPay rcvPts landed; rw [peer_peer]
theorem payload_recv_own (c : Dev nD) (d : Unit) :
    (xRd (F := F) m ρ).payload (recvCell c) 0 d
      = ((rM : Memref sig .tc .vmem S1x512 .f32).view.loc (c : Thread nD τ) ↦[(rM : Memref sig .tc .vmem S1x512 .f32).view.set]{fullShare} sent m ρ (peer c) : sProp 𝕄) := by
  rw [payload_recv]; unfold recvPay rcvPts landed; rfl
theorem payload_send_own (c : Dev nD) (d : Unit) :
    (xRd (F := F) m ρ).payload (sendCell c) 0 d
      = ((sM : Memref sig .tc .vmem S1x512 .f32).view.loc (c : Thread nD τ) ↦[(sM : Memref sig .tc .vmem S1x512 .f32).view.set]{fullShare} sent m ρ c : sProp 𝕄) := by
  rw [payload_send]; unfold sendPay sndPts; rfl

omit [FloatOps F] in
theorem hz : (![0, 0] : Fin 2 → Nat) = fun _ => 0 := funext fun a => by fin_cases a <;> rfl

abbrev rX : Rect S512x256 := Rect.unit (s := S512x256) ![0, 0] S512x256.size inb_S512x256_S512x256_0_0
abbrev rRow : Rect S1x512 := Rect.unit (s := S1x512) ![0, 0] S1x512.size inb_S1x512_S1x512_0_0
abbrev rCol : Rect S512x1 := Rect.unit (s := S512x1) ![0, 0] S512x1.size inb_S512x1_S512x1_0_0

omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz _ f
omit [FloatOps F] in
theorem read_snd (f : (cc0_scratch0 : Ref sig .tc).ty.Contents (Elt F)) : (sM : Memref sig .tc .vmem S1x512 .f32).view.readAt (Elt F) rRow.toLoadRect f = f :=
  Memref.readAt_unit_zero (Elt F) cc0_scratch0 hz _ f
omit [FloatOps F] in
theorem read_rcv (f : (cc0_scratch1 : Ref sig .tc).ty.Contents (Elt F)) : (rM : Memref sig .tc .vmem S1x512 .f32).view.readAt (Elt F) rRow.toLoadRect f = f :=
  Memref.readAt_unit_zero (Elt F) cc0_scratch1 hz _ f

/-- What the body's first store leaves in the send row, over whatever the row held: the row device `c` sends. -/
theorem sent_restate (c : Dev nD) (fs0 : Buf (Elt F) ((sM : Memref sig .tc .vmem S1x512 .f32).view.loc (c : Thread nD τ))) :
    (sM : Memref sig .tc .vmem S1x512 .f32).view.writes (Elt F) fs0 [⟨Rect.unit (s := S1x512) ![0, 0] S1x512.size inb_S1x512_S1x512_0_0,
        k0_pay2 (View.readAt (Elt F) (xM : Memref sig .tc .vmem S512x256 .f32).view (Rect.unit (s := S512x256) ![0, 0] S512x256.size inb_S512x256_S512x256_0_0).toLoadRect (xstg m ρ c))⟩]
      = sent m ρ c := by
  rw [View.writes_singleton, read_x]
  exact Memref.write_access_unit_zero_univ (Elt F) cc0_scratch0 hz _ fs0 _

/-- What the body's last store leaves in the result block, over whatever it held: the sum of the two rows as a column. -/
theorem out_restate (c : Dev nD) (g1 : Buf (Elt F) ((oM : Memref sig .tc .vmem S512x1 .f32).view.loc (c : Thread nD τ))) :
    (oM : Memref sig .tc .vmem S512x1 .f32).view.writes (Elt F) g1 [⟨Rect.unit (s := S512x1) ![0, 0] S512x1.size inb_S512x1_S512x1_0_0,
        k0_pay1 (View.readAt (Elt F) (sM : Memref sig .tc .vmem S1x512 .f32).view (Rect.unit (s := S1x512) ![0, 0] S1x512.size inb_S1x512_S1x512_0_0).toLoadRect (sent m ρ c))
          (View.readAt (Elt F) (rM : Memref sig .tc .vmem S1x512 .f32).view (Rect.unit (s := S1x512) ![0, 0] S1x512.size inb_S1x512_S1x512_0_0).toLoadRect (sent m ρ (peer c)))⟩]
      = outAt m ρ c := by
  rw [View.writes_singleton, read_snd, read_rcv]
  exact Memref.write_access_unit_zero_univ (Elt F) cc0_stg1_0 hz _ g1 _

theorem unit_mem_single : () ∈ ({()} : Finset Unit) := Finset.mem_singleton_self _

attribute [local sl_rounds] duties_bar duties_send duties_recv amount_bar amount_send amount_recv expect_bar expect_send expect_recv
  payload_bar_own payload_recv_own payload_send_own unit_mem_single
attribute [local sl_rounds high] payload_bar_peer payload_recv_peer
attribute [local sl_canon] dev1_eq dev2_eq

set_option maxHeartbeats 1600000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs payToks sndPts rcvPts
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hsnd⟩, ⟨%fr0, Hrcv⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  have hmw := mayWait_bar (F := F) c
  ihave Hx' := (Entails.of_eq (xPts_eq (F := F) c (xstg m ρ c)).symm) $$ Hx
  ihave Hout' := (Entails.of_eq (oPts_eq (F := F) c g1).symm) $$ Hout
  set_option sl_exec.maxSteps 13 in sl_exec (disch := simp only [dev1_eq, dev2_eq])
  rw [sent_restate m ρ c fs0]
  sl_exec (disch := simp only [dev1_eq, dev2_eq])
  -- the two own cells close: their counters at zero are the device's again
  imod (Rounds.cell_close ER (xRd m ρ) (Set.mem_univ (K (c, 1))) (fun h => h) (R := 1) (duties_later m ρ (sendCell c))) $$ [HatS] with HzS
  · isplitr; · iexact HIsnd
    iexact HatS
  imod (Rounds.cell_close ER (xRd m ρ) (Set.mem_univ (K (c, 2))) (fun h => h) (R := 1) (duties_later m ρ (recvCell c))) $$ [HatV] with HzV
  · isplitr; · iexact HIrcv
    iexact HatV
  rw [out_restate m ρ c g1, wp_ret]; imodintro
  ihave Hx := (Entails.of_eq (xPts_eq (F := F) c (xstg m ρ c))) $$ Hx'
  ihave Hout := (Entails.of_eq (oPts_eq (F := F) c (outAt m ρ c))) $$ Hout'
  iapply Hk
  unfold bodyPost Φ₁ Dat.owesAt Pipeline.owesWithin sndPts rcvPts landed
  rw [show (dats m ρ 0 c).owed t₀.succ = 0 from rfl]
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Hsnd, Hrcv⟩, Ho, Hx, Hout⟩
  iapply (sound_body m ρ K c fun _ => bodyPost m ρ c)
  unfold bodyPre
  isplitr []
  · isplitl [Hg Hrest Hsnd Hrcv]
    · isplitl [Hg]; · iexact Hg
      icases Hrest with ⟨H1, H2, H3⟩
      isplitl [H1]; · iexact H1
      isplitl [H2]; · iexact H2
      isplitl [H3]; · iexact H3
      isplitl [Hsnd]; · iexact Hsnd
      iexact Hrcv
    isplitl [Ho]; · iexact Ho
    isplitl [Hx] <;> iassumption
  · iintro H; iexact H

end Body

end Cert.KernelIdeal.Exchange

end
-- ==== Proof.KernelIdealLaunch.lean ====
/-
  The launch: every device's body proved, the exchange's cells allocated for all four devices under one update, each
  device dealt the tokens of the duties it pays, and the program run to its end with every window's array at its final
  contents.
-/
import proofs.«901101_g7700000000001102_dist_sum_ax1_xy_m512_n256_v7x_xy2x2_f32_1_alg».proof.Proof.KernelIdealBody

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Every cell's one duty token, as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (xRd m ρ) (K ck) (kcell ck) : sProp 𝕄)) ⊢ cellInv ER (xRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear G' ghost invs
  iintro ⟨⟨#HI, #HR⟩, ⟨HaB, HaS, HaV⟩, Htk⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  iexact Htk

omit [FloatOps F] in
/-- The tokens dealt across each pair: a device's entry token and receive token go to its partner, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (xRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s entry cell: a unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%g, Hs1⟩⟩
  isplitl [Hs]; · iexact Hs
  isplitl [Hs0]
  · iexists f; rw [sndPts_eq]; iexact Hs0
  · iexists g; rw [rcvPts_eq]; iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hs0, Hs1, HzS, HzV⟩
  isplitr; · iempintro
  isplitl [HzS HzV]
  · isplitl [HzS] <;> iassumption
  isplitl [Hs0]
  · iexists (sent m ρ c); rw [← sndPts_eq]; iexact Hs0
  · iexists (landed m ρ c); rw [← rcvPts_eq]; iexact Hs1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of the program — the devices of each mesh row meeting on their entry semaphores, then exchanging their rows —
    terminates, and every final state has each window's array on each device at its final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Exchange.run_main' depends on axioms: [propext, Classical.choice, Quot.sound] -/
#guard_msgs in #print axioms run_main

end Cert.KernelIdeal.Exchange

end
-- ==== Proof.KernelIdealResult.lean ====
/-
  What the run leaves in the two arrays of each device: the argument block as it was, and the result block holding,
  as a column, the row sums of the device's own block plus the row sums of its partner's.
-/
import proofs.«901101_g7700000000001102_dist_sum_ax1_xy_m512_n256_v7x_xy2x2_f32_1_alg».proof.Proof.KernelIdealLaunch

noncomputable section

namespace Cert.KernelIdeal.Exchange

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The argument array is never written back: after the run it holds what it held. -/
theorem finalA_x (c : Dev nD) : finalA m ρ c (0 : Fin 2) = m ((c : Thread nD τ).loc main_arg0) :=
  (dats (F := F) m ρ 0 c).arrAt_in (0 : Fin 2) rfl _

/-- The staged argument block is the whole argument array. -/
theorem xstg_eq (c : Dev nD) : xstg m ρ c = m ((c : Thread nD τ).loc main_arg0) :=
  Memref.read_access_unit_zero (Elt F) main_arg0 (funext fun a => Nat.zero_mul _) _ _

/-- The result array after the one write-back is the block the body left: the window's block is the whole array. -/
theorem finalA_out (c : Dev nD) : finalA m ρ c (1 : Fin 2) = outAt m ρ c := by
  have hw : ∀ f : Buf (Elt F) ((cfg0.win (1 : Fin 2)).arr.view.loc (c : Thread nD τ)),
      ((cfg0.win (1 : Fin 2)).blk t₀).view.read (Elt F) f = f := fun f =>
    Memref.read_access_unit_zero (Elt F) main_v1 (funext fun a => Nat.zero_mul _) _ f
  unfold finalA
  rw [← hw ((dats m ρ 0 c).arrAt (1 : Fin 2) cfg0.N)]
  rw [show cfg0.N = (t₀ : Fin cfg0.N).val + 1 from rfl, Dat.arrAt_succ, if_pos (show (cfg0.win (1 : Fin 2)).flush t₀ = true from rfl), View.read_write_univ]
  rfl

/-- Every weakly fair execution of the program ends, on every device, with the result array at the sum of the two
    rows and the argument array unchanged. -/
theorem run : θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_main m ρ)

/-- info: 'Cert.KernelIdeal.Exchange.run' depends on axioms: [propext, Classical.choice, Quot.sound] -/
#guard_msgs in #print axioms run

end Cert.KernelIdeal.Exchange

end
-- ==== Proof.RowSumsValue.lean ====
/-
  The value of the exchange over the extended reals, against the one-device reference.

  Device `c` sits at mesh coordinates (c / 2, c % 2) and holds the 512 x 256 block of the 1024 x 512 argument at block
  coordinates (c / 2, c % 2). The row it sends is the product of the all-ones row with its block contracted over the
  block's 256 columns: entry r is the sum of row r of the block (1 · x = x, and a sum into the zero accumulator is the
  sum). Its partner holds the block beside it in the same block row, so the device's result at row r is the sum of the
  first 256 and of the last 256 entries of row (c / 2) · 512 + r of the whole argument, in one order or the other:
  the sum of that whole row of 512, which is what the reference's sum along axis 1 holds there. Only commutativity and
  associativity of + on the extended reals are used, so finiteness of the inputs is not needed.
-/
import proofs.«901101_g7700000000001102_dist_sum_ax1_xy_m512_n256_v7x_xy2x2_f32_1_alg».proof.Proof.KernelIdealResult
import proofs.«901101_g7700000000001102_dist_sum_ax1_xy_m512_n256_v7x_xy2x2_f32_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.IdealHost
import Idealize.ShloMosaic.Lib.Layout

noncomputable section

namespace Cert.RowSums

open Idealize.ShloMosaic Idealize.ShloMosaic.TcCoe Idealize.ShloMosaic.ValueIdx Idealize.ShloMosaic.Layout Idealize.SL.Sem
open Cert.KernelIdeal Cert.KernelIdeal.Gen Cert.KernelIdeal.Exchange

/-! ## The kernel's two payloads at an index -/

/-- The right operand's index at output (0, r) and contraction position k: row r of the block (the right operand's
    free axis is its axis 0, the output's axis 1), -/
theorem rhs_row (j : S1x512.Idx) (k : dot_S1x256_S512x256_S1x512_1_1_0_0_n_n.contr.Idx) :
    (dot_S1x256_S512x256_S1x512_1_1_0_0_n_n.rhsIdx j k 0).val = (j 1).val := by
  unfold DotDims.rhsIdx
  rw [dif_neg (show ¬ (0 : Fin S512x256.rank) ∈ dot_S1x256_S512x256_S1x512_1_1_0_0_n_n.rhsBatch by decide),
    dif_pos (show (0 : Fin S512x256.rank) ∈ dot_S1x256_S512x256_S1x512_1_1_0_0_n_n.rhsNonContracting by decide)]
  rfl
/-- column k (its contracted axis is its axis 1). -/
theorem rhs_col (j : S1x512.Idx) (k : dot_S1x256_S512x256_S1x512_1_1_0_0_n_n.contr.Idx) :
    (dot_S1x256_S512x256_S1x512_1_1_0_0_n_n.rhsIdx j k 1).val = (k ⟨0, by decide⟩).val :=
  dot_S1x256_S512x256_S1x512_1_1_0_0_n_n.rhsIdx_val_of_single rfl j k

/-- The row sent, at entry (0, r): the sum of row r of the block. -/
theorem pay2_apply (x : Vec Ideal S512x256 .f32) (j : S1x512.Idx) :
    k0_pay2 (F := Ideal) x j = ∑ k : Fin 256, x (ix2 (⟨(j 1).val, (j 1).isLt⟩ : Fin 512) k) := by
  unfold k0_pay2
  simp only [shapeCast_self]
  show FloatOps.matmul dot_S1x256_S512x256_S1x512_1_1_0_0_n_n none (broadcast S1x256 (Scalar.ofBits (F := Ideal) .f32 0x3F800000#32)) x
    (constant S1x512 .f32 0x00000000#32) j = _
  rw [Ideal.matmul_constant_zero_apply, ← Equiv.sum_comp (contrEquiv1 dot_S1x256_S512x256_S1x512_1_1_0_0_n_n 256 rfl rfl).symm]
  refine Finset.sum_congr rfl fun k _ => ?_
  rw [broadcast_apply]
  show Ideal.ofBits .f32 0x3F800000#32 * _ = _
  rw [Ideal.ofBits_one_f32, one_mul]
  refine congrArg x (funext fun a => Fin.ext ?_)
  match a with
  | ⟨0, _⟩ => exact rhs_row j _
  | ⟨1, _⟩ => exact (rhs_col j _).trans (contrEquiv1_symm_val dot_S1x256_S512x256_S1x512_1_1_0_0_n_n 256 rfl rfl k)

/-- The result column at row r: the two rows' entries r added. -/
theorem pay1_apply (a b : Vec Ideal S1x512 .f32) (i : S512x1.Idx) :
    k0_pay1 (F := Ideal) a b i
      = (show EReal from a (ix2 (0 : Fin 1) (⟨(i 0).val, (i 0).isLt⟩ : Fin 512))) + (show EReal from b (ix2 (0 : Fin 1) (⟨(i 0).val, (i 0).isLt⟩ : Fin 512))) := by
  unfold k0_pay1
  exact transpose_apply [1, 0] (addf (F := Ideal) (s := S1x512) (φ := .f32) a b) _ i (ix2 (0 : Fin 1) (⟨(i 0).val, (i 0).isLt⟩ : Fin 512))
    (fun bb => match bb with
      | ⟨0, _⟩ => rfl
      | ⟨1, _⟩ => by
        have h : (i 1).val < 1 := (i 1).isLt
        show (0 : ℕ) = (i 1).val
        omega)

/-! ## The kernel's result on a device, row by row -/

/-- Device `c`'s block of the argument as a plain array of extended reals. -/
def argBlock (m : (ℓ : Loc nD τ sig) → Buf (Elt Ideal) ℓ) (c : Dev nD) : S512x256.Idx → EReal := m ((c : Thread nD τ).loc main_arg0)

/-- The result of device `c` at row r: row r of its own block summed, plus row r of its partner's block summed. -/
theorem outAt_apply (m : (ℓ : Loc nD τ sig) → Buf (Elt Ideal) ℓ) (ρ : Dev nD → PrngReg) (c : Dev nD) (i : S512x1.Idx) :
    (show EReal from outAt (F := Ideal) m ρ c i)
      = (∑ k : Fin 256, argBlock m c (ix2 (⟨(i 0).val, (i 0).isLt⟩ : Fin 512) k))
        + ∑ k : Fin 256, argBlock m (peer c) (ix2 (⟨(i 0).val, (i 0).isLt⟩ : Fin 512) k) := by
  unfold outAt sent
  rw [pay1_apply, pay2_apply, pay2_apply, xstg_eq, xstg_eq]
  rfl

/-! ## The reference at a row -/

/-- The reference's result at row R: the sum of row R of the whole argument (the initial value is the zero word). -/
theorem ref_apply (X : (⟨Cert.ReferenceIdeal.S1024x512, .f32⟩ : BufTy).Contents (Elt Ideal)) (j : Cert.ReferenceIdeal.S1024x1.Idx) :
    (show EReal from Cert.ReferenceIdeal.Read.val_main_v1 (F := Ideal) X j)
      = ∑ k : Fin 512, (show EReal from X (ix2 (⟨(j 0).val, (j 0).isLt⟩ : Fin 1024) k)) := by
  rw [Cert.ReferenceIdeal.Read.val_main_v1_apply, Cert.ReferenceIdeal.Read.val_main_v0_apply, Cert.ReferenceIdeal.Read.val_main_cst_apply]
  show Ideal.ofBits .f32 0x00000000#32 + _ = _
  rw [Ideal.ofBits_zero_f32, zero_add]
  refine Finset.sum_congr rfl fun k _ => congrArg X (funext fun a => Fin.ext ?_)
  match a with
  | ⟨0, _⟩ => rfl
  | ⟨1, _⟩ => rfl

/-! ## Joining the two -/

theorem lin_row : ∀ c : Fin 4, meshLin [2, 2] c.val [0] = c.val / 2 := by decide
theorem lin_col : ∀ c : Fin 4, meshLin [2, 2] c.val [1] = c.val % 2 := by decide
theorem peer_row : ∀ c : Dev nD, (peer c).val / 2 = c.val / 2 := by decide
theorem peer_col : ∀ c : Dev nD, (peer c).val % 2 = 1 - c.val % 2 := by decide

/-- A sum over 512 columns is the sum over the first 256 plus the sum over the last 256. -/
theorem sum_halves (f : Fin 512 → EReal) :
    ∑ k : Fin 512, f k = (∑ k : Fin 256, f ⟨k.val, by omega⟩) + ∑ k : Fin 256, f ⟨256 + k.val, by omega⟩ :=
  Fin.sum_univ_add (a := 256) (b := 256) (show Fin (256 + 256) → EReal from f)

/-- Row r of device `c`'s block and row r of its partner's are the two halves of row (c / 2) · 512 + r of the whole
    argument: their sums add up to the sum of that whole row. -/
theorem rows_join (X : (⟨2, ![1024, 512]⟩ : Shape).Idx → EReal) (xs : Dev nD → (⟨2, ![512, 256]⟩ : Shape).Idx → EReal)
    (hx : ∀ d : Dev nD, xs d = blockN ⟨2, ![512, 256]⟩ ⟨2, ![1024, 512]⟩ (meshBlock [2, 2] ![[0], [1]] d) X)
    (c : Dev nD) (r : Fin 512) (R : Fin 1024) (hR : R.val = c.val / 2 * 512 + r.val) :
    (∑ k : Fin 256, xs c (ix2 r k)) + (∑ k : Fin 256, xs (peer c) (ix2 r k)) = ∑ k : Fin 512, X (ix2 R k) := by
  have own : ∀ (k : Fin 256) (q : Fin 512), q.val = c.val % 2 * 256 + k.val → xs c (ix2 r k) = X (ix2 R q) := fun k q hq => by
    rw [hx c]
    show X _ = X _
    refine congrArg X (funext fun a => Fin.ext ?_)
    match a with
    | ⟨0, _⟩ => show meshLin [2, 2] c.val [0] * 512 + r.val = R.val; rw [lin_row c, hR]
    | ⟨1, _⟩ => show meshLin [2, 2] c.val [1] * 256 + k.val = q.val; rw [lin_col c, hq]
  have other : ∀ (k : Fin 256) (q : Fin 512), q.val = (1 - c.val % 2) * 256 + k.val → xs (peer c) (ix2 r k) = X (ix2 R q) := fun k q hq => by
    rw [hx (peer c)]
    show X _ = X _
    refine congrArg X (funext fun a => Fin.ext ?_)
    match a with
    | ⟨0, _⟩ => show meshLin [2, 2] (peer c).val [0] * 512 + r.val = R.val; rw [lin_row (peer c), peer_row c, hR]
    | ⟨1, _⟩ => show meshLin [2, 2] (peer c).val [1] * 256 + k.val = q.val; rw [lin_col (peer c), peer_col c, hq]
  rw [sum_halves fun k => X (ix2 R k)]
  rcases Nat.mod_two_eq_zero_or_one c.val with h | h
  · -- the device holds the left half of the row, its partner the right half
    have e1 : ∑ k : Fin 256, xs c (ix2 r k) = ∑ k : Fin 256, X (ix2 R ⟨k.val, by omega⟩) :=
      Finset.sum_congr rfl fun k _ => own k ⟨k.val, by omega⟩ (by show k.val = c.val % 2 * 256 + k.val; omega)
    have e2 : ∑ k : Fin 256, xs (peer c) (ix2 r k) = ∑ k : Fin 256, X (ix2 R ⟨256 + k.val, by omega⟩) :=
      Finset.sum_congr rfl fun k _ => other k ⟨256 + k.val, by omega⟩ (by show 256 + k.val = (1 - c.val % 2) * 256 + k.val; omega)
    rw [e1, e2]
  · -- the device holds the right half, its partner the left half
    have e1 : ∑ k : Fin 256, xs c (ix2 r k) = ∑ k : Fin 256, X (ix2 R ⟨256 + k.val, by omega⟩) :=
      Finset.sum_congr rfl fun k _ => own k ⟨256 + k.val, by omega⟩ (by show 256 + k.val = c.val % 2 * 256 + k.val; omega)
    have e2 : ∑ k : Fin 256, xs (peer c) (ix2 r k) = ∑ k : Fin 256, X (ix2 R ⟨k.val, by omega⟩) :=
      Finset.sum_congr rfl fun k _ => other k ⟨k.val, by omega⟩ (by show k.val = (1 - c.val % 2) * 256 + k.val; omega)
    rw [e1, e2, add_comm]

/-- On every device the kernel's result is the device's block — block row c / 2 — of the reference's column of row sums. -/
theorem result_is_block (m : (ℓ : Loc nD τ sig) → Buf (Elt Ideal) ℓ) (ρ : Dev nD → PrngReg)
    (X : (⟨Cert.ReferenceIdeal.S1024x512, .f32⟩ : BufTy).Contents (Elt Ideal))
    (hX : ∀ c : Dev nD, m ((c.tc : Thread nD τ).loc main_arg0)
      = blockN ⟨2, ![512, 256]⟩ ⟨2, ![1024, 512]⟩ (meshBlock [2, 2] ![[0], [1]] c) X) (c : Dev nD) :
    outAt (F := Ideal) m ρ c
      = blockN ⟨2, ![512, 1]⟩ ⟨2, ![1024, 1]⟩ (meshBlock [2, 2] ![[0], []] c) (Cert.ReferenceIdeal.Read.val_main_v1 (F := Ideal) X) := by
  funext i
  have hi : (i 0).val < 512 := (i 0).isLt
  have hc : c.val < 4 := c.isLt
  refine (outAt_apply m ρ c i).trans ?_
  show _ = (show EReal from Cert.ReferenceIdeal.Read.val_main_v1 (F := Ideal) X _)
  rw [ref_apply]
  refine (rows_join X (argBlock m) hX c ⟨(i 0).val, hi⟩ ⟨c.val / 2 * 512 + (i 0).val, by omega⟩ rfl).trans ?_
  refine Finset.sum_congr rfl fun k _ => congrArg X (funext fun a => Fin.ext ?_)
  match a with
  | ⟨0, _⟩ => show c.val / 2 * 512 + (i 0).val = meshLin [2, 2] c.val [0] * 512 + (i 0).val; rw [lin_row c]
  | ⟨1, _⟩ => rfl

/-- info: 'Cert.RowSums.result_is_block' depends on axioms: [propext, Classical.choice, Quot.sound] -/
#guard_msgs in #print axioms result_is_block

end Cert.RowSums

end
-- ==== Proof.lean ====
/-
  The certificate: on the 2 x 2 mesh, each device sums the rows of its 512 x 256 block, exchanges the sums with the
  other device of its mesh row, and adds: every device ends holding, for its 512 rows, the sums of the whole rows of
  the 1024 x 512 argument — its block of the reference's sum along axis 1.

  The frames of the two kernel programs are the run of the exchange (one body lemma for a symbolic device, launched
  on all four devices) with the values dropped; the reference's frame is its run; the idealization rewrote nothing;
  and over the extended reals the kernel's result block is the reference's block because a row's sum splits into the
  sums of its two halves.
-/
import proofs.«901101_g7700000000001102_dist_sum_ax1_xy_m512_n256_v7x_xy2x2_f32_1_alg».proof.Defs
import proofs.«901101_g7700000000001102_dist_sum_ax1_xy_m512_n256_v7x_xy2x2_f32_1_alg».proof.Proof.Gen.Kernel
import proofs.«901101_g7700000000001102_dist_sum_ax1_xy_m512_n256_v7x_xy2x2_f32_1_alg».proof.Proof.Gen.KernelIdeal
import proofs.«901101_g7700000000001102_dist_sum_ax1_xy_m512_n256_v7x_xy2x2_f32_1_alg».proof.Proof.Gen.ReferenceIdeal
import proofs.«901101_g7700000000001102_dist_sum_ax1_xy_m512_n256_v7x_xy2x2_f32_1_alg».proof.Proof.Gen.Pre_finite_inputs_Kernel
import proofs.«901101_g7700000000001102_dist_sum_ax1_xy_m512_n256_v7x_xy2x2_f32_1_alg».proof.Proof.Gen.Pre_finite_inputs_ReferenceIdeal
import proofs.«901101_g7700000000001102_dist_sum_ax1_xy_m512_n256_v7x_xy2x2_f32_1_alg».proof.Proof.Gen.ReferenceIdeal.Run
import proofs.«901101_g7700000000001102_dist_sum_ax1_xy_m512_n256_v7x_xy2x2_f32_1_alg».proof.Proof.Gen.ReferenceIdeal.Read
import proofs.«901101_g7700000000001102_dist_sum_ax1_xy_m512_n256_v7x_xy2x2_f32_1_alg».proof.Proof.KernelResult
import proofs.«901101_g7700000000001102_dist_sum_ax1_xy_m512_n256_v7x_xy2x2_f32_1_alg».proof.Proof.KernelIdealResult
import proofs.«901101_g7700000000001102_dist_sum_ax1_xy_m512_n256_v7x_xy2x2_f32_1_alg».proof.Proof.RowSumsValue
import Idealize.ShloMosaic.Adequacy
import Idealize.ShloMosaic.Init

noncomputable section

namespace Cert.Proof

open Idealize.ShloMosaic Idealize.ShloMosaic.TcCoe Idealize.SL.Sem

/-- The word-level kernel runs to its end on all four devices and leaves its argument blocks as they were. -/
theorem frame_kernel : Cert.frame_Kernel := fun m ρ _ =>
  (θ_run Cert.Kernel.defs _ _).mono (fun _ h c => (h c).2) (Cert.Kernel.Exchange.run (F := Bits) m ρ)

/-- So does the idealized kernel. -/
theorem frame_kernelIdeal : Cert.frame_KernelIdeal := fun m ρ _ =>
  (θ_run Cert.KernelIdeal.defs _ _).mono (fun _ h c => (h c).2) (Cert.KernelIdeal.Exchange.run (F := Ideal) m ρ)

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs run; the reference ends holding the column of whole-row sums, and each device's result block is its
    block of that column. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨(h c).1.trans ?_, (h c).2⟩) (Cert.KernelIdeal.Exchange.run (F := Ideal) m ρ)
    exact Cert.RowSums.result_is_block m ρ _ hagree c
  · exact (θ_run Cert.ReferenceIdeal.defs _ _).mono
      (fun r h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_reference, trivial, algebraic⟩

end Cert.Proof

end
